-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S1024x512 : Shape := ⟨2, ![1024, 512]⟩
abbrev S1024x1024 : Shape := ⟨2, ![1024, 1024]⟩
abbrev S8x4 : Shape := ⟨2, ![8, 4]⟩
abbrev S1024x8 : Shape := ⟨2, ![1024, 8]⟩
abbrev S512x4 : Shape := ⟨2, ![512, 4]⟩
abbrev S1024x4 : Shape := ⟨2, ![1024, 4]⟩
abbrev S4x512 : Shape := ⟨2, ![4, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S32x32, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let arg1 : BitVec 32 := BitVec.ofNat 32 (i 1).val
  let c8_i32 : BitVec 32 := 8#32
  let v3 : BitVec 32 := Scalar.muli arg1 c8_i32
  let v5 : Index := Scalar.indexCast v3
  let arg2 : BitVec 32 := BitVec.ofNat 32 (i 2).val
  let c4_i32 : BitVec 32 := 4#32
  let v4 : BitVec 32 := Scalar.muli arg2 c4_i32
  let v6 : Index := Scalar.indexCast v4
  ![v5.toNat, v6.toNat]
def k0_cond2 (i : grid0.Coords) : BitVec 1 :=
  let arg2 : BitVec 32 := BitVec.ofNat 32 (i 2).val
  let c7_i32 : BitVec 32 := 7#32
  let v81 : BitVec 1 := Scalar.cmpi .eq arg2 c7_i32
  let v82 : BitVec 32 := Scalar.extui v81
  let c0_i32_22 : BitVec 32 := 0#32
  let v83 : BitVec 1 := Scalar.cmpi .ne v82 c0_i32_22
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S8x4 : 0 < S8x4.numel
  iota_S1024x8_d0_w32 : S1024x8.Iotas .tc 32 [0]
  natLt_1_32 : 1 < 32
  iota_S1024x8_d1_w32 : S1024x8.Iotas .tc 32 [1]
  iota_S512x4_d0_w32 : S512x4.Iotas .tc 32 [0]
  iota_S512x4_d1_w32 : S512x4.Iotas .tc 32 [1]
  transposes_S512x4_p1_0_S4x512 : S512x4.Transposes [1, 0] S4x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  dot_S1024x8_S8x4_S1024x4_1_0_0_1_n_n_wf : DotDims.WF S1024x8 S8x4 S1024x4 [1] [0] [0] [1] [] []
  dot_S1024x4_S4x512_S1024x512_1_0_0_1_n_n_wf : DotDims.WF S1024x4 S4x512 S1024x512 [1] [0] [0] [1] [] []
  dot_S1024x512_S512x1024_S1024x1024_1_0_0_1_n_n_wf : DotDims.WF S1024x512 S512x1024 S1024x1024 [1] [0] [0] [1] [] []
  hrank0 : 0 < grid0.rank
  k0_off1_inb : ∀ i : grid0.Coords, ∀ a, (k0_off1 i) a + S8x4.size a ≤ S32x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x8_S8x4_S1024x4_1_0_0_1_n_n : DotDims S1024x8 S8x4 S1024x4 where
  lhsContracting := [1]
  rhsContracting := [0]
  lhsNonContracting := [0]
  rhsNonContracting := [1]
  lhsBatch := []
  rhsBatch := []
  wf := dot_S1024x8_S8x4_S1024x4_1_0_0_1_n_n_wf
def dot_S1024x4_S4x512_S1024x512_1_0_0_1_n_n : DotDims S1024x4 S4x512 S1024x512 where
  lhsContracting := [1]
  rhsContracting := [0]
  lhsNonContracting := [0]
  rhsNonContracting := [1]
  lhsBatch := []
  rhsBatch := []
  wf := dot_S1024x4_S4x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S32x128x32 : Shape := ⟨3, ![32, 128, 32]⟩
abbrev S4096x32 : Shape := ⟨2, ![4096, 32]⟩
abbrev S4096x32x128 : Shape := ⟨3, ![4096, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32, .f32⟩
  | .hbm, ⟨4, _⟩ => ⟨S4096x32, .f32⟩
  | .hbm, ⟨5, _⟩ => ⟨S4096x32x128, .f32⟩
  | .hbm, ⟨6, _⟩ => ⟨S4096x4096, .f32⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What the body leaves behind at a grid point, case by case, as the one accumulation step.

  The body keeps a 1024 x 1024 accumulator across the 8 grid points of a reduction run.  At the run's first point it
  zeroes the accumulator and then adds that point's product into it (so the step is taken from zero); at every later
  point it adds the point's product to what the point before left; at the run's last point it also copies the
  accumulator, after the addition, into the output block.  Each store covers its whole buffer, so what a buffer holds
  afterwards is the payload of the last store into it, and a load after a store reads that store's payload.
-/
import proofs.«120651_j1915555414610_1_alg».proof.Proof.Gen.KernelIdeal.Frame
import Idealize.ShloMosaic.Lib.Pipeline.Value

noncomputable section

namespace Cert.BlockScaledGemm

open Idealize.ShloMosaic Idealize.ShloMosaic.TcCoe Idealize.ShloMosaic.Tactic Idealize.SL.Sem Cert.KernelIdeal Cert.KernelIdeal.Gen

variable {F : FTy → Type} [FloatOps F]

/-- The offsets of an access to a whole buffer. -/
theorem origin : (![0, 0] : Fin 2 → Nat) = fun _ => 0 := funext fun a => by fin_cases a <;> rfl

/-- The 8 x 4 corner of the scale array the body loads at grid point `i`: rows from 8 times the point's second
    coordinate, columns from 4 times its third. -/
abbrev cornerAt (i : grid0.Coords) (x2 : Vec F S32x32 .f32) : Vec F S8x4 .f32 :=
  View.ld x2 (Rect.unit (s := S32x32) (k0_off1 i) S8x4.size (Facts₀.k0_off1_inb i))

/-- The accumulation step at grid point `i` on the blocks `x0` (of x), `x1` (of w) and the scale array `x2`, from the
    accumulator `acc`. -/
abbrev stepAt (i : grid0.Coords) (x0 : Vec F S1024x512 .f32) (x1 : Vec F S1024x512 .f32) (x2 : Vec F S32x32 .f32) (acc : Vec F S1024x1024 .f32) : Vec F S1024x1024 .f32 :=
  k0_pay5 (cornerAt i x2) k0_pay2 (iota .tc S512x4 32 [0] Facts₀.iota_S512x4_d0_w32) 128#32 k0_pay3 k0_pay4 x1 x0 acc

/-- The zero accumulator of a run's first point. -/
abbrev zeroAcc : Vec F S1024x1024 .f32 := k0_pay1

/-- At a run's first point the accumulator ends at the step taken from zero: the zeroing store, then the step's store
    over it, whose own load of the accumulator read the zeros. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S32x32 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S32x32 .f32) :
    sout0_A_0 c i arg3 harg3 arg4 harg4 arg5 harg5 arg6 harg6 arg7 harg7 hc0 hc1 x0 x1 x2 = stepAt i x0 x1 x2 zeroAcc := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread, View.ld_unit_zero (S := S1024x512) origin]
  rfl

/-- At a middle point the accumulator ends at the step taken from what the point before left. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S32x32 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S32x32 .f32) (xs0 : Vec F S1024x1024 .f32) :
    sout0_B_0 c i arg3 harg3 arg4 harg4 arg5 harg5 arg6 harg6 arg7 harg7 hc0 hc1 x0 x1 x2 xs0 = stepAt i x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) origin]
  simp only [View.readAt_eq_ld, harg3.read_unread, harg4.read_unread, harg5.read_unread, harg7.read_unread, View.ld_unit_zero (S := S1024x512) origin, View.ld_unit_zero (S := S1024x1024) origin]
  rfl

/-- At a run's last point the accumulator ends at the step taken from what the point before left … -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S32x32 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S32x32 .f32) (xs0 : Vec F S1024x1024 .f32) :
    sout0_C_0 c i arg3 harg3 arg4 harg4 arg5 harg5 arg6 harg6 arg7 harg7 hc0 hc1 x0 x1 x2 xs0 = stepAt i x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) origin]
  simp only [View.readAt_eq_ld, harg3.read_unread, harg4.read_unread, harg5.read_unread, harg7.read_unread, View.ld_unit_zero (S := S1024x512) origin, View.ld_unit_zero (S := S1024x1024) origin]
  rfl

/-- … and the output block is a copy of it: the body loads the accumulator after the step's store and stores what it
    read over the whole output block. -/
theorem output_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S32x32 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S32x32 .f32) (xs0 : Vec F S1024x1024 .f32) :
    out0_C_3 c i arg3 harg3 arg4 harg4 arg5 harg5 arg6 harg6 arg7 harg7 hc0 hc1 x0 x1 x2 xs0 = stepAt i x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) origin, View.readCov_unit_zero (S := S1024x1024) _ origin]
  simp only [View.readAt_eq_ld, harg3.read_unread, harg4.read_unread, harg5.read_unread, harg7.read_unread, View.ld_unit_zero (S := S1024x512) origin, View.ld_unit_zero (S := S1024x1024) origin]
  rfl

end Cert.BlockScaledGemm

end
-- ==== Proof.Arith.lean ====
/-
  The arithmetic the block-scaled product rests on, with no program in sight.

  * Sums over the extended reals (a commutative monoid under +, with 0 * x = 0 and 1 * x = x for EVERY x, the
    infinities included): a sum against an indicator picks one term; a sum over 4096 indices is the sum over 8 tiles
    of the sums over the 512 indices of each tile.
  * Floor division by 128 as a program spells it on 32-bit signed words (the truncating quotient, lowered by one
    when the signs of dividend and divisor differ and the remainder is not zero), compared with a second word: on
    the small non-negative numbers that occur — a row number below 1024 against a tile number below 8, a column
    number below 512 against a tile number below 4 — the comparison says exactly "row / 128 = tile".
-/
import Idealize.ShloMosaic.PureOps.Ideal
import Idealize.ShloMosaic.Lib.ValueIdx

noncomputable section

namespace Cert.BlockScaledGemm

open Idealize.ShloMosaic

/-! ## Sums -/

/-- A sum of products with the indicator of one index is the factor at that index: every other term is `0 * v a = 0`,
    whatever `v a` is. -/
theorem sum_indicator_mul {n : ℕ} (f : Fin n) (v : Fin n → EReal) :
    ∑ a : Fin n, (if f.val = a.val then (1 : EReal) else 0) * v a = v f := by
  rw [Finset.sum_eq_single f (fun b _ hb => by rw [if_neg (fun h => hb (Fin.ext h.symm)), zero_mul])
    (fun h => absurd (Finset.mem_univ f) h), if_pos rfl, one_mul]

/-- The same with the indicator on the right. -/
theorem sum_mul_indicator {n : ℕ} (f : Fin n) (v : Fin n → EReal) :
    ∑ a : Fin n, v a * (if f.val = a.val then (1 : EReal) else 0) = v f := by
  rw [Finset.sum_eq_single f (fun b _ hb => by rw [if_neg (fun h => hb (Fin.ext h.symm)), mul_zero])
    (fun h => absurd (Finset.mem_univ f) h), if_pos rfl, mul_one]

/-- A sum over `T * L` indices, tile by tile: index `a * L + q` is the `q`-th of tile `a`. -/
theorem sum_by_tiles {M : Type*} [AddCommMonoid M] (T L : ℕ) (f : Fin (T * L) → M) :
    ∑ k : Fin (T * L), f k
      = ∑ a : Fin T, ∑ q : Fin L, f ⟨a.val * L + q.val, by
          have ha := a.isLt; have hq := q.isLt
          calc a.val * L + q.val < a.val * L + L := by omega
            _ = (a.val + 1) * L := by ring
            _ ≤ T * L := Nat.mul_le_mul_right L ha⟩ := by
  rw [← finProdFinEquiv.sum_comp, Fintype.sum_prod_type]
  refine Finset.sum_congr rfl fun a _ => Finset.sum_congr rfl fun q _ => congrArg f (Fin.ext ?_)
  show q.val + L * a.val = a.val * L + q.val
  rw [Nat.mul_comm, Nat.add_comm]

/-- 4096 contraction indices as 8 tiles of 512. -/
theorem sum_4096_by_512 {M : Type*} [AddCommMonoid M] (f : Fin 4096 → M) :
    ∑ k : Fin 4096, f k = ∑ a : Fin 8, ∑ q : Fin 512, f ⟨a.val * 512 + q.val, by have := a.isLt; have := q.isLt; omega⟩ :=
  sum_by_tiles 8 512 f

/-! ## Floor division by 128 on words -/

/-- "Is the floor of `X / 128` equal to `Y`", on signed 32-bit words, as a word that is 1 or 0: the truncating quotient
    `q`, the signs of `X` and of 128 compared, the remainder tested against zero; the floor is `q - 1` when the signs
    differ and the remainder is not zero, else `q`. -/
def floorDiv128Is (X Y : BitVec 32) : BitVec 32 :=
  let q := IntOp.divsi .vector X 128#32
  let signX := IntOp.subi ((IntOp.cmpi .sgt X 0#32).setWidth 32) ((IntOp.cmpi .slt X 0#32).setWidth 32)
  let signD := Scalar.subi (Scalar.extui (Scalar.cmpi .sgt 128#32 0#32)) (Scalar.extui (Scalar.cmpi .slt 128#32 0#32))
  let lower := IntOp.andi (IntOp.cmpi .ne signX signD) (IntOp.cmpi .ne (IntOp.remsi .vector X 128#32) 0#32)
  (IntOp.cmpi .eq (Scalar.select lower (IntOp.subi q 1#32) q) Y).setWidth 32

/-- Row `p < 1024` against tile `a < 8`. -/
theorem floorDiv128Is_rows : ∀ (p : Fin 1024) (a : Fin 8),
    floorDiv128Is (BitVec.ofNat 32 p.val) (BitVec.ofNat 32 a.val) = if p.val / 128 = a.val then 1#32 else 0#32 := by
  decide +kernel

/-- Column `q < 512` against tile `b < 4`. -/
theorem floorDiv128Is_cols : ∀ (q : Fin 512) (b : Fin 4),
    floorDiv128Is (BitVec.ofNat 32 q.val) (BitVec.ofNat 32 b.val) = if q.val / 128 = b.val then 1#32 else 0#32 := by
  decide +kernel

/-- The word 1 or 0 read as a signed integer, as an extended real. -/
theorem indicator_toInt (P : Prop) [Decidable P] :
    (((if P then 1#32 else 0#32 : BitVec 32).toInt : ℝ) : EReal) = if P then (1 : EReal) else 0 := by
  split_ifs <;> simp

end Cert.BlockScaledGemm

end
-- ==== Proof.Contract.lean ====
/-
  The kernel's three matrix products read at an entry, at the exact values: each contracts the second axis of its
  left operand with the first axis of its right operand into a zero accumulator, so entry (i, j) of the product is
  the plain sum over k of  left (i, k) * right (k, j).
-/
import proofs.«120651_j1915555414610_1_alg».proof.Proof.Gen.KernelIdeal
import Idealize.ShloMosaic.Lib.ValueIdx
import Idealize.ShloMosaic.PureOps.Ideal.Laws

noncomputable section

namespace Cert.BlockScaledGemm

open Idealize.ShloMosaic Idealize.ShloMosaic.ValueIdx Cert.KernelIdeal

/-! ## 1024x8 times 8x4 -/

/-- The left operand is read at the output's row … -/
theorem rowTiles_lhs_0 (i : S1024x4.Idx) (q : dot_S1024x8_S8x4_S1024x4_1_0_0_1_n_n.contr.Idx) :
    (dot_S1024x8_S8x4_S1024x4_1_0_0_1_n_n.lhsIdx i q 0).val = (i 0).val := by
  unfold DotDims.lhsIdx
  rw [dif_neg (show ¬(0 : Fin S1024x8.rank) ∈ dot_S1024x8_S8x4_S1024x4_1_0_0_1_n_n.lhsBatch by decide), dif_pos (show (0 : Fin S1024x8.rank) ∈ dot_S1024x8_S8x4_S1024x4_1_0_0_1_n_n.lhsNonContracting by decide)]
  rfl
/-- … and the contraction position, -/
theorem rowTiles_lhs_1 (i : S1024x4.Idx) (q : dot_S1024x8_S8x4_S1024x4_1_0_0_1_n_n.contr.Idx) :
    (dot_S1024x8_S8x4_S1024x4_1_0_0_1_n_n.lhsIdx i q 1).val = (q ⟨0, by decide⟩).val :=
  dot_S1024x8_S8x4_S1024x4_1_0_0_1_n_n.lhsIdx_val_of_single rfl i q
/-- the right operand at the contraction position … -/
theorem rowTiles_rhs_0 (i : S1024x4.Idx) (q : dot_S1024x8_S8x4_S1024x4_1_0_0_1_n_n.contr.Idx) :
    (dot_S1024x8_S8x4_S1024x4_1_0_0_1_n_n.rhsIdx i q 0).val = (q ⟨0, by decide⟩).val :=
  dot_S1024x8_S8x4_S1024x4_1_0_0_1_n_n.rhsIdx_val_of_single rfl i q
/-- … and the output's column. -/
theorem rowTiles_rhs_1 (i : S1024x4.Idx) (q : dot_S1024x8_S8x4_S1024x4_1_0_0_1_n_n.contr.Idx) :
    (dot_S1024x8_S8x4_S1024x4_1_0_0_1_n_n.rhsIdx i q 1).val = (i 1).val := by
  unfold DotDims.rhsIdx
  rw [dif_neg (show ¬(1 : Fin S8x4.rank) ∈ dot_S1024x8_S8x4_S1024x4_1_0_0_1_n_n.rhsBatch by decide), dif_pos (show (1 : Fin S8x4.rank) ∈ dot_S1024x8_S8x4_S1024x4_1_0_0_1_n_n.rhsNonContracting by decide)]
  rfl

/-- The indicator matrix of the rows' tiles against the 8 x 4 corner of the scales: a contraction over the 8 tiles. -/
theorem rowTiles_apply {φ₁ φ₂ : FTy} (l : FVec Ideal S1024x8 φ₁) (r : FVec Ideal S8x4 φ₂) (i : Fin 1024) (j : Fin 4) :
    matmul dot_S1024x8_S8x4_S1024x4_1_0_0_1_n_n none l r (constant S1024x4 .f32 0x00000000#32) (ix2 i j)
      = ∑ k : Fin 8, l (ix2 i k) * r (ix2 k j) := by
  simp only [matmul]
  rw [Ideal.matmul_constant_zero_apply, ← Equiv.sum_comp (contrEquiv1 dot_S1024x8_S8x4_S1024x4_1_0_0_1_n_n 8 rfl rfl).symm]
  refine Finset.sum_congr rfl fun k _ => ?_
  have hk := contrEquiv1_symm_val dot_S1024x8_S8x4_S1024x4_1_0_0_1_n_n 8 rfl rfl k
  have el : dot_S1024x8_S8x4_S1024x4_1_0_0_1_n_n.lhsIdx (ix2 i j) ((contrEquiv1 dot_S1024x8_S8x4_S1024x4_1_0_0_1_n_n 8 rfl rfl).symm k) = ix2 i k := funext fun a => Fin.ext (by
    match a with
    | ⟨0, _⟩ => exact rowTiles_lhs_0 _ _
    | ⟨1, _⟩ => exact (rowTiles_lhs_1 _ _).trans hk)
  have er : dot_S1024x8_S8x4_S1024x4_1_0_0_1_n_n.rhsIdx (ix2 i j) ((contrEquiv1 dot_S1024x8_S8x4_S1024x4_1_0_0_1_n_n 8 rfl rfl).symm k) = ix2 k j := funext fun a => Fin.ext (by
    match a with
    | ⟨0, _⟩ => exact (rowTiles_rhs_0 _ _).trans hk
    | ⟨1, _⟩ => exact rowTiles_rhs_1 _ _)
  rw [el, er]

/-! ## 1024x4 times 4x512 -/

/-- The left operand is read at the output's row … -/
theorem colTiles_lhs_0 (i : S1024x512.Idx) (q : dot_S1024x4_S4x512_S1024x512_1_0_0_1_n_n.contr.Idx) :
    (dot_S1024x4_S4x512_S1024x512_1_0_0_1_n_n.lhsIdx i q 0).val = (i 0).val := by
  unfold DotDims.lhsIdx
  rw [dif_neg (show ¬(0 : Fin S1024x4.rank) ∈ dot_S1024x4_S4x512_S1024x512_1_0_0_1_n_n.lhsBatch by decide), dif_pos (show (0 : Fin S1024x4.rank) ∈ dot_S1024x4_S4x512_S1024x512_1_0_0_1_n_n.lhsNonContracting by decide)]
  rfl
/-- … and the contraction position, -/
theorem colTiles_lhs_1 (i : S1024x512.Idx) (q : dot_S1024x4_S4x512_S1024x512_1_0_0_1_n_n.contr.Idx) :
    (dot_S1024x4_S4x512_S1024x512_1_0_0_1_n_n.lhsIdx i q 1).val = (q ⟨0, by decide⟩).val :=
  dot_S1024x4_S4x512_S1024x512_1_0_0_1_n_n.lhsIdx_val_of_single rfl i q
/-- the right operand at the contraction position … -/
theorem colTiles_rhs_0 (i : S1024x512.Idx) (q : dot_S1024x4_S4x512_S1024x512_1_0_0_1_n_n.contr.Idx) :
    (dot_S1024x4_S4x512_S1024x512_1_0_0_1_n_n.rhsIdx i q 0).val = (q ⟨0, by decide⟩).val :=
  dot_S1024x4_S4x512_S1024x512_1_0_0_1_n_n.rhsIdx_val_of_single rfl i q
/-- … and the output's column. -/
theorem colTiles_rhs_1 (i : S1024x512.Idx) (q : dot_S1024x4_S4x512_S1024x512_1_0_0_1_n_n.contr.Idx) :
    (dot_S1024x4_S4x512_S1024x512_1_0_0_1_n_n.rhsIdx i q 1).val = (i 1).val := by
  unfold DotDims.rhsIdx
  rw [dif_neg (show ¬(1 : Fin S4x512.rank) ∈ dot_S1024x4_S4x512_S1024x512_1_0_0_1_n_n.rhsBatch by decide), dif_pos (show (1 : Fin S4x512.rank) ∈ dot_S1024x4_S4x512_S1024x512_1_0_0_1_n_n.rhsNonContracting by decide)]
  rfl

/-- The row-expanded scales against the transposed indicator matrix of the columns' tiles: a contraction over the 4 tiles. -/
theorem colTiles_apply {φ₁ φ₂ : FTy} (l : FVec Ideal S1024x4 φ₁) (r : FVec Ideal S4x512 φ₂) (i : Fin 1024) (j : Fin 512) :
    matmul dot_S1024x4_S4x512_S1024x512_1_0_0_1_n_n none l r (constant S1024x512 .f32 0x00000000#32) (ix2 i j)
      = ∑ k : Fin 4, l (ix2 i k) * r (ix2 k j) := by
  simp only [matmul]
  rw [Ideal.matmul_constant_zero_apply, ← Equiv.sum_comp (contrEquiv1 dot_S1024x4_S4x512_S1024x512_1_0_0_1_n_n 4 rfl rfl).symm]
  refine Finset.sum_congr rfl fun k _ => ?_
  have hk := contrEquiv1_symm_val dot_S1024x4_S4x512_S1024x512_1_0_0_1_n_n 4 rfl rfl k
  have el : dot_S1024x4_S4x512_S1024x512_1_0_0_1_n_n.lhsIdx (ix2 i j) ((contrEquiv1 dot_S1024x4_S4x512_S1024x512_1_0_0_1_n_n 4 rfl rfl).symm k) = ix2 i k := funext fun a => Fin.ext (by
    match a with
    | ⟨0, _⟩ => exact colTiles_lhs_0 _ _
    | ⟨1, _⟩ => exact (colTiles_lhs_1 _ _).trans hk)
  have er : dot_S1024x4_S4x512_S1024x512_1_0_0_1_n_n.rhsIdx (ix2 i j) ((contrEquiv1 dot_S1024x4_S4x512_S1024x512_1_0_0_1_n_n 4 rfl rfl).symm k) = ix2 k j := funext fun a => Fin.ext (by
    match a with
    | ⟨0, _⟩ => exact (colTiles_rhs_0 _ _).trans hk
    | ⟨1, _⟩ => exact colTiles_rhs_1 _ _)
  rw [el, er]

/-! ## 1024x512 times 512x1024 -/

/-- The left operand is read at the output's row … -/
theorem main_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- … and the contraction position, -/
theorem main_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand at the contraction position … -/
theorem main_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and the output's column. -/
theorem main_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block of x against the transposed block of the dequantised weight: a contraction over the 512 columns of the blocks. -/
theorem main_apply {φ₁ φ₂ : FTy} (l : FVec Ideal S1024x512 φ₁) (r : FVec Ideal S512x1024 φ₂) (i : Fin 1024) (j : Fin 1024) :
    matmul dot_S1024x512_S512x1024_S1024x1024_1_0_0_1_n_n none l r (constant S1024x1024 .f32 0x00000000#32) (ix2 i j)
      = ∑ k : Fin 512, l (ix2 i k) * r (ix2 k j) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 i j) ((contrEquiv1 dot_S1024x512_S512x1024_S1024x1024_1_0_0_1_n_n 512 rfl rfl).symm k) = ix2 i k := funext fun a => Fin.ext (by
    match a with
    | ⟨0, _⟩ => exact main_lhs_0 _ _
    | ⟨1, _⟩ => exact (main_lhs_1 _ _).trans hk)
  have er : dot_S1024x512_S512x1024_S1024x1024_1_0_0_1_n_n.rhsIdx (ix2 i j) ((contrEquiv1 dot_S1024x512_S512x1024_S1024x1024_1_0_0_1_n_n 512 rfl rfl).symm k) = ix2 k j := funext fun a => Fin.ext (by
    match a with
    | ⟨0, _⟩ => exact (main_rhs_0 _ _).trans hk
    | ⟨1, _⟩ => exact main_rhs_1 _ _)
  rw [el, er]

end Cert.BlockScaledGemm

end
-- ==== Proof.Point.lean ====
/-
  What one grid point adds to the accumulator, entry by entry.

  At a grid point the body holds a 1024 x 512 block of x, a 1024 x 512 block of w and an 8 x 4 corner of the scales
  (the scales of the 8 x 4 tiles of 128 x 128 that the block of w is made of).  It expands the corner to the block's
  size by two products with indicator matrices — entry (p, a) of the first says "row p lies in tile a", entry (q, b)
  of the second "column q lies in tile b" — so that the expanded scale at (p, q) is the corner's entry
  (p / 128, q / 128): in each of the two sums every term but one is 0 times something.  It multiplies the block of w
  by that, entry by entry, and adds to the accumulator the product of the block of x with the transpose of the
  result:

      new (r, p) = old (r, p) + sum over q < 512 of  x (r, q) * (w (p, q) * corner (p / 128, q / 128)).
-/
import proofs.«120651_j1915555414610_1_alg».proof.Proof.Gen.KernelIdeal.Skeleton
import proofs.«120651_j1915555414610_1_alg».proof.Proof.Arith
import proofs.«120651_j1915555414610_1_alg».proof.Proof.Contract
import Idealize.ShloMosaic.Lib.Pipeline.Value
import Idealize.ShloMosaic.Lib.ValueLayout

noncomputable section

namespace Cert.BlockScaledGemm

open Idealize.ShloMosaic Idealize.ShloMosaic.ValueIdx Cert.KernelIdeal Cert.KernelIdeal.Gen

/-- The tile of 128 rows that holds row `p` of a block of 1024 rows. -/
abbrev rowTile (p : Fin 1024) : Fin 8 := ⟨p.val / 128, by have := p.isLt; omega⟩
/-- The tile of 128 columns that holds column `q` of a block of 512 columns. -/
abbrev colTile (q : Fin 512) : Fin 4 := ⟨q.val / 128, by have := q.isLt; omega⟩

/-- The accumulation step on abstract operands: `E` and `C` any matrices that ARE the two indicator matrices. -/
theorem step_apply (E : FVec Ideal S1024x8 .f32) (C : FVec Ideal S512x4 .f32)
    (hE : ∀ (p : Fin 1024) (a : Fin 8), E (ix2 p a) = if (rowTile p).val = a.val then (1 : EReal) else 0)
    (hC : ∀ (q : Fin 512) (b : Fin 4), C (ix2 q b) = if (colTile q).val = b.val then (1 : EReal) else 0)
    (corner : FVec Ideal S8x4 .f32) (wb xb : FVec Ideal S1024x512 .f32) (acc : FVec Ideal S1024x1024 .f32) (r p : Fin 1024) :
    shapeCast S1024x1024
        (addf acc (matmul dot_S1024x512_S512x1024_S1024x1024_1_0_0_1_n_n none (truncf .bf16 xb Facts₀.bitsLt_bf16_f32)
          (transpose S512x1024 [1, 0]
            (truncf .bf16 (mulf wb (matmul dot_S1024x4_S4x512_S1024x512_1_0_0_1_n_n none
              (matmul dot_S1024x8_S8x4_S1024x4_1_0_0_1_n_n none E corner (constant S1024x4 .f32 0x00000000#32))
              (transpose S4x512 [1, 0] C Facts₀.transposes_S512x4_p1_0_S4x512) (constant S1024x512 .f32 0x00000000#32))) Facts₀.bitsLt_bf16_f32)
            Facts₀.transposes_S1024x512_p1_0_S512x1024)
          (constant S1024x1024 .f32 0x00000000#32)))
        Facts₀.shapeCasts_S1024x1024_S1024x1024 (ix2 r p)
      = acc (ix2 r p) + ∑ q : Fin 512, xb (ix2 r q) * (wb (ix2 p q) * corner (ix2 (rowTile p) (colTile q))) := by
  rw [shapeCast_self, addf_apply, main_apply]
  refine congrArg (acc (ix2 r p) + ·) (Finset.sum_congr rfl fun q _ => ?_)
  have hrow : ∀ b : Fin 4, matmul dot_S1024x8_S8x4_S1024x4_1_0_0_1_n_n none E corner (constant S1024x4 .f32 0x00000000#32) (ix2 p b)
      = corner (ix2 (rowTile p) b) := fun b => by
    rw [rowTiles_apply]
    simp only [hE]
    exact sum_indicator_mul (rowTile p) (fun a => corner (ix2 a b))
  rw [truncf_apply, transpose_ix2_apply, truncf_apply, mulf_apply, colTiles_apply]
  have hcol : ∀ b : Fin 4, transpose S4x512 [1, 0] C Facts₀.transposes_S512x4_p1_0_S4x512 (ix2 b q)
      = if (colTile q).val = b.val then (1 : EReal) else 0 := fun b => by
    rw [transpose_ix2_apply, hC]
  simp only [hrow, hcol]
  rw [sum_mul_indicator (colTile q) (fun b => corner (ix2 (rowTile p) b))]

/-- The first indicator matrix the body builds: "the floor of p / 128 is a", from the row and column numbers of a
    1024 x 8 array. -/
theorem rowIndicator_apply (p : Fin 1024) (a : Fin 8) :
    k0_pay2 (F := Ideal) (ix2 p a) = if (rowTile p).val = a.val then (1 : EReal) else 0 := by
  unfold k0_pay2
  show (((floorDiv128Is (BitVec.ofNat 32 (0 * 1024 + p.val)) (BitVec.ofNat 32 (0 * 8 + a.val))).toInt : ℝ) : EReal) = _
  simp only [Nat.zero_mul, Nat.zero_add]
  rw [floorDiv128Is_rows p a]
  exact indicator_toInt _

/-- One accumulation step of the body, at the two indicator matrices it builds. -/
theorem body_step_apply (corner : FVec Ideal S8x4 .f32) (wb xb : FVec Ideal S1024x512 .f32) (acc : FVec Ideal S1024x1024 .f32) (r p : Fin 1024) :
    k0_pay5 (F := Ideal) corner k0_pay2 (iota .tc S512x4 32 [0] Facts₀.iota_S512x4_d0_w32) 128#32 k0_pay3 k0_pay4 wb xb acc (ix2 r p)
      = acc (ix2 r p) + ∑ q : Fin 512, xb (ix2 r q) * (wb (ix2 p q) * corner (ix2 (rowTile p) (colTile q))) := by
  unfold k0_pay5
  refine step_apply _ _ rowIndicator_apply (fun q b => ?_) corner wb xb acc r p
  unfold k0_pay3 k0_pay4
  show (((floorDiv128Is (BitVec.ofNat 32 (0 * 512 + q.val)) (BitVec.ofNat 32 (0 * 4 + b.val))).toInt : ℝ) : EReal) = _
  simp only [Nat.zero_mul, Nat.zero_add]
  rw [floorDiv128Is_cols q b]
  exact indicator_toInt _

end Cert.BlockScaledGemm

end
-- ==== Proof.Spec.lean ====
/-
  The function both programs compute, as ONE whole-array function of the three argument arrays.

  x : [8192, 4096] (rows m, contraction index k), w : [4096, 4096] (rows n, contraction index k), and one scale per
  128 x 128 tile of w, s : [32, 32].  The result at (m, n) is the product of row m of x with row n of the
  dequantised weight, whose entry (n, k) is w (n, k) times the scale of the tile that holds it, s (n / 128, k / 128):

      result (m, n) = sum over k < 4096 of  x (m, k) * (w (n, k) * s (n / 128, k / 128)).

  Over the extended reals, with the exact operations; nothing here mentions a program.
-/
import Idealize.ShloMosaic.PureOps.Ideal
import Idealize.ShloMosaic.Lib.ValueIdx

noncomputable section

namespace Cert.BlockScaledGemm

open Idealize.ShloMosaic Idealize.ShloMosaic.ValueIdx

/-- The tile of 128 consecutive indices that holds index `i` of an axis of 4096. -/
abbrev tileOf (i : Fin 4096) : Fin 32 := ⟨i.val / 128, by have := i.isLt; omega⟩

/-- Row `m` of `x` against row `n` of the dequantised weight: entry `(n, k)` of `w` scaled by its tile's scale. -/
def result (x : (⟨2, ![8192, 4096]⟩ : Shape).Idx → EReal) (w : (⟨2, ![4096, 4096]⟩ : Shape).Idx → EReal)
    (s : (⟨2, ![32, 32]⟩ : Shape).Idx → EReal) : (⟨2, ![8192, 4096]⟩ : Shape).Idx → EReal :=
  fun j => ∑ k : Fin 4096, x (ix2 (j 0) k) * (w (ix2 (j 1) k) * s (ix2 (tileOf (j 1)) (tileOf k)))

theorem result_apply (x : (⟨2, ![8192, 4096]⟩ : Shape).Idx → EReal) (w : (⟨2, ![4096, 4096]⟩ : Shape).Idx → EReal)
    (s : (⟨2, ![32, 32]⟩ : Shape).Idx → EReal) (m : Fin 8192) (n : Fin 4096) :
    result x w s (ix2 m n) = ∑ k : Fin 4096, x (ix2 m k) * (w (ix2 n k) * s (ix2 (tileOf n) (tileOf k))) := rfl

end Cert.BlockScaledGemm

end
-- ==== Proof.Accum.lean ====
/-
  From the grid points to the whole array.

  The grid has 8 x 4 x 8 points; point t (in the order the grid runs them, the last coordinate fastest) has
  coordinates (t / 32, t / 8 % 4, t % 8): block row t / 32 of x and of the result, block row t / 8 % 4 of w (block
  column of the result), and the t % 8-th stretch of 512 contraction indices.  The 8 points t = 8 g, …, 8 g + 7 form one
  reduction run for one 1024 x 1024 block of the result.

  * Each point adds to the accumulator its ADDEND: at entry (r, p) the sum over the 512 contraction indices of its
    stretch of x (row, k) * (w (row', k) * s (row' / 128, k / 128)), rows and indices those of the whole arrays.
  * So after the s-th point of a run the accumulator holds the sum of the addends of the run's first s + 1 points, and
    after the last one the sum over all 8 stretches — all 4096 contraction indices: the block of the block-scaled
    product.  That is what the run's last point writes back.
  * The 32 blocks written back tile the result array.
-/
import proofs.«120651_j1915555414610_1_alg».proof.Proof.Gen.KernelIdeal.Value
import proofs.«120651_j1915555414610_1_alg».proof.Proof.Pieces
import proofs.«120651_j1915555414610_1_alg».proof.Proof.Point
import proofs.«120651_j1915555414610_1_alg».proof.Proof.Spec

noncomputable section

namespace Cert.BlockScaledGemm

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The arrays and the blocks, at their literal types -/

/-- The three argument arrays as the region finds them. -/
abbrev xarr (c : Dev nD) : FVec Ideal S8192x4096 .f32 := V m c main_arg0
abbrev warr (c : Dev nD) : FVec Ideal S4096x4096 .f32 := V m c main_arg1
abbrev sarr (c : Dev nD) : FVec Ideal S32x32 .f32 := V m c main_arg2
/-- The blocks the body finds in its staging buffers at point `t`. -/
abbrev xblk (c : Dev nD) (t : Fin cfg0.N) : FVec Ideal S1024x512 .f32 := iblk m c 0 t
abbrev wblk (c : Dev nD) (t : Fin cfg0.N) : FVec Ideal S1024x512 .f32 := iblk m c 1 t
abbrev sblk (c : Dev nD) (t : Fin cfg0.N) : FVec Ideal S32x32 .f32 := iblk m c 2 t

theorem point_lt (t : Fin cfg0.N) : t.val < 256 := lt_of_lt_of_eq t.isLt N_0

/-- Where the blocks of point `t` sit, and where the corner of scales starts: the printed index maps and offsets,
    decided over the 256 points. -/
theorem where_blocks : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = 0
    ∧ win0_3.index t (0 : Fin 2) = t.val / 32 ∧ win0_3.index t (1 : Fin 2) = t.val / 8 % 4
    ∧ k0_off1 (grid0.coords t) (0 : Fin 2) = 8 * (t.val / 8 % 4) ∧ k0_off1 (grid0.coords t) (1 : Fin 2) = 4 * (t.val % 8) :=
  (by decide +kernel : ∀ t : Fin grid0.N, _)

/-- The row of x (and of the result) that row `r` of point `n`'s block is; the row of w (column of the result) that
    row `p` of its block of w is; the contraction index that column `q` of its blocks is.  Stated for every natural
    `n` (the coordinates reduced into their ranges), so that a sum over points needs no bound. -/
abbrev xRow (n : ℕ) (r : Fin 1024) : Fin 8192 := ⟨n / 32 % 8 * 1024 + r.val, by have := r.isLt; omega⟩
abbrev wRow (n : ℕ) (p : Fin 1024) : Fin 4096 := ⟨n / 8 % 4 * 1024 + p.val, by have := p.isLt; omega⟩
abbrev kCol (n : ℕ) (q : Fin 512) : Fin 4096 := ⟨n % 8 * 512 + q.val, by have := q.isLt; omega⟩

theorem xblk_apply (c : Dev nD) (t : Fin cfg0.N) (r : Fin 1024) (q : Fin 512) :
    xblk m c t (ix2 r q) = xarr m c (ix2 (xRow t.val r) (kCol t.val q)) := by
  have ht := point_lt t
  obtain ⟨e0, e1, -⟩ := where_blocks t
  show V m c main_arg0 (((cfg0.win 0).blk t).view.emb (ix2 r q)) = V m c main_arg0 (ix2 (xRow t.val r) (kCol t.val q))
  refine congrArg (V m c main_arg0) (funext fun a => Fin.ext ?_)
  match a with
  | ⟨0, _⟩ => show win0_0.index t (0 : Fin 2) * 1024 + 1 * r.val = t.val / 32 % 8 * 1024 + r.val; omega
  | ⟨1, _⟩ => show win0_0.index t (1 : Fin 2) * 512 + 1 * q.val = t.val % 8 * 512 + q.val; omega

theorem wblk_apply (c : Dev nD) (t : Fin cfg0.N) (p : Fin 1024) (q : Fin 512) :
    wblk m c t (ix2 p q) = warr m c (ix2 (wRow t.val p) (kCol t.val q)) := by
  have ht := point_lt t
  obtain ⟨-, -, e2, e3, -⟩ := where_blocks t
  show V m c main_arg1 (((cfg0.win 1).blk t).view.emb (ix2 p q)) = V m c main_arg1 (ix2 (wRow t.val p) (kCol t.val q))
  refine congrArg (V m c main_arg1) (funext fun a => Fin.ext ?_)
  match a with
  | ⟨0, _⟩ => show win0_1.index t (0 : Fin 2) * 1024 + 1 * p.val = t.val / 8 % 4 * 1024 + p.val; omega
  | ⟨1, _⟩ => show win0_1.index t (1 : Fin 2) * 512 + 1 * q.val = t.val % 8 * 512 + q.val; omega

/-- The corner of scales the body loads at point `t`, at the tile of row `p` and the tile of column `q`, is the scale of
    the tile of the whole weight array that holds entry (row of `p`, index of `q`). -/
theorem corner_apply (c : Dev nD) (t : Fin cfg0.N) (p : Fin 1024) (q : Fin 512) :
    cornerAt (F := Ideal) (grid0.coords t) (sblk m c t) (ix2 (rowTile p) (colTile q))
      = sarr m c (ix2 (tileOf (wRow t.val p)) (tileOf (kCol t.val q))) := by
  have ht := point_lt t
  have hp := p.isLt
  have hq := q.isLt
  obtain ⟨-, -, -, -, e4, e5, -, -, e8, e9⟩ := where_blocks t
  show V m c main_arg2 (((cfg0.win 2).blk t).view.emb
      ((Rect.unit (s := S32x32) (k0_off1 (grid0.coords t)) S8x4.size (Facts₀.k0_off1_inb (grid0.coords t))).idx (ix2 (rowTile p) (colTile q))))
    = V m c main_arg2 (ix2 (tileOf (wRow t.val p)) (tileOf (kCol t.val q)))
  refine congrArg (V m c main_arg2) (funext fun a => Fin.ext ?_)
  match a with
  | ⟨0, _⟩ =>
    show win0_2.index t (0 : Fin 2) * 32 + 1 * (k0_off1 (grid0.coords t) (0 : Fin 2) + 1 * (p.val / 128)) = (t.val / 8 % 4 * 1024 + p.val) / 128
    omega
  | ⟨1, _⟩ =>
    show win0_2.index t (1 : Fin 2) * 32 + 1 * (k0_off1 (grid0.coords t) (1 : Fin 2) + 1 * (q.val / 128)) = (t.val % 8 * 512 + q.val) / 128
    omega

/-! ## One point's addend -/

/-- What point `n` adds at entry `(r, p)` of the accumulator, in terms of the whole arrays. -/
def addendAt (c : Dev nD) (n : ℕ) (r p : Fin 1024) : EReal :=
  ∑ q : Fin 512, xarr m c (ix2 (xRow n r) (kCol n q))
    * (warr m c (ix2 (wRow n p) (kCol n q)) * sarr m c (ix2 (tileOf (wRow n p)) (tileOf (kCol n q))))

def addend (c : Dev nD) (n : ℕ) : S1024x1024.Idx → EReal := fun j => addendAt m c n (j 0) (j 1)

/-- The body's step at point `t`, from any accumulator, adds the point's addend. -/
theorem step_at (c : Dev nD) (t : Fin cfg0.N) (acc : FVec Ideal S1024x1024 .f32) (j : S1024x1024.Idx) :
    stepAt (F := Ideal) (grid0.coords t) (xblk m c t) (wblk m c t) (sblk m c t) acc j = acc j + addend m c t.val j := by
  obtain ⟨r, p, rfl⟩ : ∃ (r p : Fin 1024), j = ix2 r p := ⟨j 0, j 1, eq_ix2 j⟩
  refine (body_step_apply (cornerAt (F := Ideal) (grid0.coords t) (sblk m c t)) (wblk m c t) (xblk m c t) acc r p).trans ?_
  show acc (ix2 r p) + _ = acc (ix2 r p) + addendAt m c t.val r p
  unfold addendAt
  refine congrArg (acc (ix2 r p) + ·) (Finset.sum_congr rfl fun q _ => ?_)
  rw [xblk_apply, wblk_apply, corner_apply]

/-- The zero accumulator is zero. -/
theorem zeroAcc_apply (j : S1024x1024.Idx) : (zeroAcc (F := Ideal)) j = 0 := by
  unfold zeroAcc k0_pay1
  rw [shapeCast_self]
  exact Ideal.ofBits_zero_f32

/-! ## The accumulator along a run -/

/-- After point `t`, the accumulator holds the sum of the addends of its run's points up to `t`. -/
theorem scratch_after (c : Dev nD) (t : Fin cfg0.N) (j : S1024x1024.Idx) :
    (outsAt0 m c t.val t.isLt).2 j = ∑ s ∈ Finset.range (t.val % 8 + 1), addend m c (8 * (t.val / 8) + s) j := by
  have ht := point_lt t
  rw [Value.soutsAt0_0_eq m c t]
  have key := Pipeline.accAt_add_apply (N := cfg0.N)
    (fun n h => Value.scAt0_0 m c n h (VS0_0.read (Elt Ideal) VS0_0.junk)) (Value.scAt0_0 m c)
    (fun _ => (0 : EReal)) (addend m c) (8 * (t.val / 8)) 7
    (fun h i => by
      have h0 : (8 * (t.val / 8)) % 8 = 0 := Nat.mul_mod_right 8 _
      have h7 : ¬(8 * (t.val / 8)) % 8 = 7 := by omega
      show Value.scAt0_0 m c (8 * (t.val / 8)) h (VS0_0.read (Elt Ideal) VS0_0.junk) i = 0 + addend m c (8 * (t.val / 8)) i
      unfold Value.scAt0_0
      rw [dif_pos h0, dif_neg h7, scratch_first]
      refine (step_at m c ⟨8 * (t.val / 8), h⟩ (zeroAcc (F := Ideal)) i).trans ?_
      rw [zeroAcc_apply])
    (fun n h acc i hlo hhi => by
      have h0 : ¬n % 8 = 0 := by omega
      by_cases h7 : n % 8 = 7
      · unfold Value.scAt0_0
        rw [dif_neg h0, dif_pos h7, scratch_last]
        exact step_at m c ⟨n, h⟩ acc i
      · unfold Value.scAt0_0
        rw [dif_neg h0, dif_neg h7, scratch_middle]
        exact step_at m c ⟨n, h⟩ acc i)
    (t.val % 8) (by omega) (by have h1 := t.isLt; omega) j
  rw [key, zero_add]

/-- At a run's last point the output block is a copy of the accumulator. -/
theorem output_eq_scratch (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  rw [output_last, scratch_last]

/-! ## What a run's last point writes back, and the array -/

/-- The block a run's last point writes back is the block of the block-scaled product of the argument arrays. -/
theorem flushed_eq (c : Dev nD) (t : Fin cfg0.N) (hf : (cfg0.win 3).flush t = true) :
    (dats m 0 c).flushed 3 t = ((cfg0.win 3).blk t).view.read (Elt Ideal) (result (xarr m c) (warr m c) (sarr m c)) := by
  have ht := point_lt t
  have h7 : t.val % 8 = 7 := (flush0_3 t).mp hf
  have h0 : ¬t.val % 8 = 0 := by omega
  obtain ⟨-, -, -, -, -, -, e6, e7, -⟩ := where_blocks t
  rw [Value.flushed3 m c t, output_eq_scratch m c t h0 h7]
  funext j
  obtain ⟨r, p, rfl⟩ : ∃ (r p : Fin 1024), j = ix2 r p := ⟨j 0, j 1, eq_ix2 j⟩
  show (outsAt0 m c t.val t.isLt).2 (ix2 r p) = result (xarr m c) (warr m c) (sarr m c) (((cfg0.win 3).blk t).view.emb (ix2 r p))
  have hemb : ((cfg0.win 3).blk t).view.emb (ix2 r p) = ix2 (xRow t.val r) (wRow t.val p) := funext fun a => Fin.ext (by
    match a with
    | ⟨0, _⟩ => show win0_3.index t (0 : Fin 2) * 1024 + 1 * r.val = t.val / 32 % 8 * 1024 + r.val; omega
    | ⟨1, _⟩ => show win0_3.index t (1 : Fin 2) * 1024 + 1 * p.val = t.val / 8 % 4 * 1024 + p.val; omega)
  rw [hemb, result_apply, scratch_after, h7, sum_4096_by_512, Finset.sum_range]
  refine Finset.sum_congr rfl fun a _ => ?_
  have ha := a.isLt
  show addendAt m c (8 * (t.val / 8) + a.val) r p = _
  unfold addendAt
  refine Finset.sum_congr rfl fun q _ => ?_
  have hq := q.isLt
  have hr := r.isLt
  have hp := p.isLt
  have eX : xRow (8 * (t.val / 8) + a.val) r = xRow t.val r := Fin.ext (by show (8 * (t.val / 8) + a.val) / 32 % 8 * 1024 + r.val = t.val / 32 % 8 * 1024 + r.val; omega)
  have eW : wRow (8 * (t.val / 8) + a.val) p = wRow t.val p := Fin.ext (by show (8 * (t.val / 8) + a.val) / 8 % 4 * 1024 + p.val = t.val / 8 % 4 * 1024 + p.val; omega)
  have eK : kCol (8 * (t.val / 8) + a.val) q = (⟨a.val * 512 + q.val, by omega⟩ : Fin 4096) := Fin.ext (by show (8 * (t.val / 8) + a.val) % 8 * 512 + q.val = a.val * 512 + q.val; omega)
  rw [eX, eW, eK]

/-- An index of the result array is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the result array is in the block some run's last point writes back: the run of its block row and
    block column. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨tv, htv⟩ : ∃ tv : ℕ, tv = ((i 0).val / 1024 * 4 + (i 1).val / 1024) * 8 + 7 := ⟨_, rfl⟩
  have hlt : tv < cfg0.N := lt_of_lt_of_eq (by omega : tv < 256) N_0.symm
  refine ⟨⟨tv, hlt⟩, (flush0_3 ⟨tv, hlt⟩).mpr (by show tv % 8 = 7; omega), ?_⟩
  rw [mem_block]
  obtain ⟨-, -, -, -, -, -, e6, e7, -⟩ := where_blocks ⟨tv, hlt⟩
  intro a
  match a with
  | ⟨0, _⟩ =>
    show win0_3.index ⟨tv, hlt⟩ (0 : Fin 2) * 1024 ≤ (i 0).val ∧ (i 0).val < win0_3.index ⟨tv, hlt⟩ (0 : Fin 2) * 1024 + 1024
    rw [e6]; show tv / 32 * 1024 ≤ (i 0).val ∧ (i 0).val < tv / 32 * 1024 + 1024; omega
  | ⟨1, _⟩ =>
    show win0_3.index ⟨tv, hlt⟩ (1 : Fin 2) * 1024 ≤ (i 1).val ∧ (i 1).val < win0_3.index ⟨tv, hlt⟩ (1 : Fin 2) * 1024 + 1024
    rw [e7]; show tv / 8 % 4 * 1024 ≤ (i 1).val ∧ (i 1).val < tv / 8 % 4 * 1024 + 1024; omega

/-- After the run the result array holds the block-scaled product of the argument arrays. -/
theorem final (c : Dev nD) : (dats m 0 c).arrAt 3 cfg0.N = result (xarr m c) (warr m c) (sarr m c) :=
  (dats m 0 c).arrAt_eq_of_cover 3 (result (xarr m c) (warr m c) (sarr m c)) (fun t hf => flushed_eq m c t hf) covered

/-- Every weakly fair execution of the kernel's program ends with the result array at the block-scaled product of the
    arguments as launched, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.BlockScaledGemm

end
-- ==== Proof.RefIsSpec.lean ====
/-
  The reference computes the block-scaled product.

  Its scale array is built by two rounds of "broadcast along a new axis of 128, then merge that axis into its
  neighbour": entry (n, k) of the [4096, 4096] scale is s (n / 128, k / 128).  Row-major positions say so: position
  n * 4096 + k of the [4096, 32, 128] array is (n, k / 128, k % 128), and position n * 32 + b of the [32, 128, 32]
  array is (n / 128, n % 128, b).  The weight is multiplied by it entry by entry, and the final product contracts the
  second axis of both operands.
-/
import proofs.«120651_j1915555414610_1_alg».proof.Proof.Gen.ReferenceIdeal.Read
import proofs.«120651_j1915555414610_1_alg».proof.Proof.Spec

noncomputable section

namespace Cert.BlockScaledGemm

open Idealize.ShloMosaic Idealize.ShloMosaic.ValueIdx Cert.ReferenceIdeal Cert.ReferenceIdeal.Read

/-- The scale the reference multiplies entry `(n, k)` of the weight by is `s (n / 128, k / 128)`: the four layout steps
    composed, as one index. -/
theorem scale_index (n k : Fin 4096) :
    idx_main_v0 (idx_main_v1 (idx_main_v2 (idx_main_v3 (ix2 n k)))) = ix2 (tileOf n) (tileOf k) := by
  have hn := n.isLt; have hk := k.isLt
  funext a
  refine Fin.ext ?_
  match a with
  | ⟨0, _⟩ =>
    show (((n.val * 4096 + k.val) / 4096) * 32 + ((n.val * 4096 + k.val) / 128 % 32)) / 4096 = n.val / 128
    omega
  | ⟨1, _⟩ =>
    show (((n.val * 4096 + k.val) / 4096) * 32 + ((n.val * 4096 + k.val) / 128 % 32)) % 32 = k.val / 128
    omega

/-- The reference's result, as the Run module states it, is the block-scaled product of the three arguments. -/
theorem reference_eq (x0 : (⟨S8192x4096, .f32⟩ : BufTy).Contents (Elt Ideal)) (x1 : (⟨S4096x4096, .f32⟩ : BufTy).Contents (Elt Ideal))
    (x2 : (⟨S32x32, .f32⟩ : BufTy).Contents (Elt Ideal)) :
    val_main_v5 (F := Ideal) x0 x1 x2 = result x0 x1 x2 := by
  funext i
  obtain ⟨mm, nn, rfl⟩ : ∃ (mm : Fin 8192) (nn : Fin 4096), i = ix2 mm nn := ⟨i 0, i 1, eq_ix2 i⟩
  rw [val_main_v5_apply, result_apply]
  refine Finset.sum_congr rfl fun k _ => ?_
  have e1 : lidx_main_v5 (ix2 mm nn) k = ix2 mm k := funext fun a => Fin.ext (by match a with | ⟨0, _⟩ => rfl | ⟨1, _⟩ => rfl)
  have e2 : ridx_main_v5 (ix2 mm nn) k = ix2 nn k := funext fun a => Fin.ext (by match a with | ⟨0, _⟩ => rfl | ⟨1, _⟩ => rfl)
  rw [e1, e2, val_main_v4_apply, val_main_v3_apply, val_main_v2_apply, val_main_v1_apply, val_main_v0_apply, scale_index]
  rfl

end Cert.BlockScaledGemm

end
-- ==== Proof.lean ====
/-
  A block-scaled matrix product with the dequantisation fused into the kernel, against its plain reference.

  Arguments: x : [8192, 4096], w : [4096, 4096], and one scale per 128 x 128 tile of w, s : [32, 32].  Both programs
  compute, over the extended reals with the exact operations,

      result (m, n) = sum over k < 4096 of  x (m, k) * (w (n, k) * s (n / 128, k / 128)).

  The reference expands s to the size of w by two broadcasts and reshapes, multiplies w by it and contracts the second
  axes of x and of the product (Proof/RefIsSpec.lean).  The kernel runs a grid of 8 x 4 x 8 points; at a point it
  expands an 8 x 4 corner of s to a 1024 x 512 block by two products with indicator matrices of "row / 128 = tile",
  multiplies its block of w by that, and adds the product of its block of x with the transpose into an accumulator
  it carries along the 8 points of a reduction run, zeroed at the run's first point and copied to the output block at
  its last (Proof/Point.lean: one step at an entry; Proof/Pieces.lean: what the body leaves in its buffers, case by
  case; Proof/Accum.lean: the accumulator along a run, the block written back, the blocks tiling the array).  The laws
  that join the two sides hold for every extended real — 0 * a = 0, 1 * a = a, and sums regrouped — so the
  precondition (finite inputs) is not used.

  The frames are the generated ones (the reference's: its generated run with the result dropped); the idealisation
  rewrote nothing, so `preserves` is trivial.
-/
import proofs.«120651_j1915555414610_1_alg».proof.Defs
import proofs.«120651_j1915555414610_1_alg».proof.Proof.Gen.Kernel
import proofs.«120651_j1915555414610_1_alg».proof.Proof.Gen.Kernel.Skeleton
import proofs.«120651_j1915555414610_1_alg».proof.Proof.Gen.Kernel.Launch
import proofs.«120651_j1915555414610_1_alg».proof.Proof.Gen.Kernel.Points
import proofs.«120651_j1915555414610_1_alg».proof.Proof.Gen.Kernel.Frame
import proofs.«120651_j1915555414610_1_alg».proof.Proof.Gen.KernelIdeal
import proofs.«120651_j1915555414610_1_alg».proof.Proof.Gen.KernelIdeal.Skeleton
import proofs.«120651_j1915555414610_1_alg».proof.Proof.Gen.KernelIdeal.Launch
import proofs.«120651_j1915555414610_1_alg».proof.Proof.Gen.KernelIdeal.Points
import proofs.«120651_j1915555414610_1_alg».proof.Proof.Gen.KernelIdeal.Frame
import proofs.«120651_j1915555414610_1_alg».proof.Proof.Gen.ReferenceIdeal
import proofs.«120651_j1915555414610_1_alg».proof.Proof.Gen.Pre_finite_inputs
import proofs.«120651_j1915555414610_1_alg».proof.Proof.Gen.KernelIdeal.Value
import proofs.«120651_j1915555414610_1_alg».proof.Proof.Gen.ReferenceIdeal.Run
import proofs.«120651_j1915555414610_1_alg».proof.Proof.Gen.ReferenceIdeal.Read
import proofs.«120651_j1915555414610_1_alg».proof.Proof.Accum
import proofs.«120651_j1915555414610_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the block-scaled product of those
    arguments in their result arrays. -/
theorem algebraic : Cert.algebraic_KernelIdeal_ReferenceIdeal := by
  intro m ρ m' ρ' _ hagree
  refine ⟨fun c => Cert.BlockScaledGemm.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.BlockScaledGemm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.BlockScaledGemm.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
